-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x16384 .f32) (main_arg1 : FVec F S16384x128 .f32) (main_arg2 : FVec F S128x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x16384 : Shape := ⟨2, ![16384, 16384]⟩
abbrev S16384x128 : Shape := ⟨2, ![16384, 128]⟩
abbrev S128x128 : Shape := ⟨2, ![128, 128]⟩
abbrev S2x64x128 : Shape := ⟨3, ![2, 64, 128]⟩
abbrev S_ : Shape := ⟨0, ![]⟩
abbrev S2x64 : Shape := ⟨2, ![2, 64]⟩
abbrev S2x64x1 : Shape := ⟨3, ![2, 64, 1]⟩
abbrev S2x64x64 : Shape := ⟨3, ![2, 64, 64]⟩
abbrev S64x64 : Shape := ⟨2, ![64, 64]⟩
abbrev S1x64x64 : Shape := ⟨3, ![1, 64, 64]⟩
abbrev S2 : Shape := ⟨1, ![2]⟩
abbrev S2x1x1 : Shape := ⟨3, ![2, 1, 1]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 80
  | .vmem => 8
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S2x64x128, .f32⟩
  | .hbm, ⟨4, _⟩ => ⟨S_, .f32⟩
  | .hbm, ⟨5, _⟩ => ⟨S2x64, .f32⟩
  | .hbm, ⟨6, _⟩ => ⟨S2x64x1, .f32⟩
  | .hbm, ⟨7, _⟩ => ⟨S_, .f32⟩
  | .hbm, ⟨8, _⟩ => ⟨S2x64x1, .f32⟩
  | .hbm, ⟨9, _⟩ => ⟨S2x64x1, .f32⟩
  | .hbm, ⟨10, _⟩ => ⟨S2x64x128, .f32⟩
  | .hbm, ⟨11, _⟩ => ⟨S2x64x128, .f32⟩
  | .hbm, ⟨12, _⟩ => ⟨S2x64x64, .f32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S1x64x64, .f32⟩
  | .hbm, ⟨24, _⟩ => ⟨S2x64x64, .f32⟩
  | .hbm, ⟨25, _⟩ => ⟨S2x64x64, .f32⟩
  | .hbm, ⟨26, _⟩ => ⟨S2x64x64, .f32⟩
  | .hbm, ⟨27, _⟩ => ⟨S_, .f32⟩
  | .hbm, ⟨28, _⟩ => ⟨S2, .f32⟩
  | .hbm, ⟨29, _⟩ => ⟨S2x1x1, .f32⟩
  | .hbm, ⟨30, _⟩ => ⟨S2x1x1, .f32⟩
  | .hbm, ⟨31, _⟩ => ⟨S2x64x64, .f32⟩
  | .hbm, ⟨32, _⟩ => ⟨S2x64x64, .f32⟩
  | .hbm, ⟨33, _⟩ => ⟨S2x64x64, .f32⟩
  | .hbm, ⟨34, _⟩ => ⟨S2x64x64, .f32⟩
  | .hbm, ⟨35, _⟩ => ⟨S2x64x64, .f32⟩
  | .hbm, ⟨36, _⟩ => ⟨S_, .f32⟩
  | .hbm, ⟨37, _⟩ => ⟨S2x64x64, .f32⟩
  | .hbm, ⟨38, _⟩ => ⟨S2x64x64, .f32⟩
  | .hbm, ⟨39, _⟩ => ⟨S2x64x64, .f32⟩
  | .hbm, ⟨40, _⟩ => ⟨S_, .f32⟩
  | .hbm, ⟨41, _⟩ => ⟨S2x64x64, .f32⟩
  | .hbm, ⟨42, _⟩ => ⟨S2x64x64, .f32⟩
  | .hbm, ⟨43, _⟩ => ⟨S2x64x64, .f32⟩
  | .hbm, ⟨44, _⟩ => ⟨S2x64x64, .f32⟩
  | .hbm, ⟨45, _⟩ => ⟨S2x64x64, .f32⟩
  | .hbm, ⟨46, _⟩ => ⟨S_, .f32⟩
  | .hbm, ⟨47, _⟩ => ⟨S2x64x64, .f32⟩
  | .hbm, ⟨48, _⟩ => ⟨S2x64x64, .f32⟩
  | .hbm, ⟨49, _⟩ => ⟨S2x64x64, .f32⟩
  | .hbm, ⟨50, _⟩ => ⟨S_, .f32⟩
  | .hbm, ⟨51, _⟩ => ⟨S2x64x64, .f32⟩
  | .hbm, ⟨52, _⟩ => ⟨S2x64x64, .f32⟩
  | .hbm, ⟨53, _⟩ => ⟨S2x64x64, .f32⟩
  | .hbm, ⟨54, _⟩ => ⟨S2x64x64, .f32⟩
  | .hbm, ⟨55, _⟩ => ⟨S2x64x64, .f32⟩
  | .hbm, ⟨56, _⟩ => ⟨S_, .f32⟩
  | .hbm, ⟨57, _⟩ => ⟨S2x64x64, .f32⟩
  | .hbm, ⟨58, _⟩ => ⟨S2x64x64, .f32⟩
  | .hbm, ⟨59, _⟩ => ⟨S2x64x64, .f32⟩
  | .hbm, ⟨60, _⟩ => ⟨S_, .f32⟩
  | .hbm, ⟨61, _⟩ => ⟨S2x64x64, .f32⟩
  | .hbm, ⟨62, _⟩ => ⟨S2x64x64, .f32⟩
  | .hbm, ⟨63, _⟩ => ⟨S2x64x64, .f32⟩
  | .hbm, ⟨64, _⟩ => ⟨S2x64x64, .f32⟩
  | .hbm, ⟨65, _⟩ => ⟨S2x64x64, .f32⟩
  | .hbm, ⟨66, _⟩ => ⟨S_, .f32⟩
  | .hbm, ⟨67, _⟩ => ⟨S2x64x64, .f32⟩
  | .hbm, ⟨68, _⟩ => ⟨S2x64x64, .f32⟩
  | .hbm, ⟨69, _⟩ => ⟨S2x64x64, .f32⟩
  | .hbm, ⟨70, _⟩ => ⟨S_, .f32⟩
  | .hbm, ⟨71, _⟩ => ⟨S2x64x64, .f32⟩
  | .hbm, ⟨72, _⟩ => ⟨S2x64x64, .f32⟩
  | .hbm, ⟨73, _⟩ => ⟨S2x64x64, .f32⟩
  | .hbm, ⟨74, _⟩ => ⟨S2x64x128, .f32⟩
  | .hbm, ⟨75, _⟩ => ⟨S2x1x1, .f32⟩
  | .hbm, ⟨76, _⟩ => ⟨S2x64x128, .f32⟩
  | .hbm, ⟨77, _⟩ => ⟨S2x64x128, .f32⟩
  | .hbm, ⟨78, _⟩ => ⟨S128x128, .f32⟩
  | .hbm, ⟨79, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S128x128_S2x64x128 : S128x128.ShapeCasts S2x64x128
  reducesTo_S2x64x128_S2x64_d2 : S2x64x128.ReducesTo [2] S2x64
  h_S_ : 0 < S_.numel
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x128_0_1_2 : S2x64x1.BroadcastsInDim S2x64x128 (![0, 1, 2] : Fin 3 → Fin S2x64x128.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S2x64x64_0_1_2 : S1x64x64.BroadcastsInDim S2x64x64 (![0, 1, 2] : Fin 3 → Fin S2x64x64.rank)
  reducesTo_S2x64x64_S2_d1_2 : S2x64x64.ReducesTo [1, 2] S2
  bcast_S2_S2x1x1_0 : S2.BroadcastsInDim S2x1x1 (![0] : Fin 1 → Fin S2x1x1.rank)
  bcast_S2x1x1_S2x64x64_0_1_2 : S2x1x1.BroadcastsInDim S2x64x64 (![0, 1, 2] : Fin 3 → Fin S2x64x64.rank)
  bcast_S64x64_S2x64x64_1_2 : S64x64.BroadcastsInDim S2x64x64 (![1, 2] : Fin 2 → Fin S2x64x64.rank)
  bcast_S_S2x64x64 : S_.BroadcastsInDim S2x64x64 (![] : Fin 0 → Fin S2x64x64.rank)
  bcast_S2x1x1_S2x64x128_0_1_2 : S2x1x1.BroadcastsInDim S2x64x128 (![0, 1, 2] : Fin 3 → Fin S2x64x128.rank)
  shapeCasts_S2x64x128_S128x128 : S2x64x128.ShapeCasts S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S2x64x128_S2x64x128_S2x64x64_2_2_1_1_0_0_wf : DotDims.WF S2x64x128 S2x64x128 S2x64x64 [2] [2] [1] [1] [0] [0]
  dot_S2x64x64_S2x64x64_S2x64x64_2_1_1_2_0_0_wf : DotDims.WF S2x64x64 S2x64x64 S2x64x64 [2] [1] [1] [2] [0] [0]
  dot_S2x64x64_S2x64x128_S2x64x128_2_1_1_2_0_0_wf : DotDims.WF S2x64x64 S2x64x128 S2x64x128 [2] [1] [1] [2] [0] [0]
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)

variable [Facts₀]

def dot_S2x64x128_S2x64x128_S2x64x64_2_2_1_1_0_0 : DotDims S2x64x128 S2x64x128 S2x64x64 where
  lhsContracting := [2]
  rhsContracting := [2]
  lhsNonContracting := [1]
  rhsNonContracting := [1]
  lhsBatch := [0]
  rhsBatch := [0]
  wf := dot_S2x64x128_S2x64x128_S2x64x64_2_2_1_1_0_0_wf
def dot_S2x64x64_S2x64x64_S2x64x64_2_1_1_2_0_0 : DotDims S2x64x64 S2x64x64 S2x64x64 where
  lhsContracting := [2]
  rhsContracting := [1]
  lhsNonContracting := [1]
  rhsNonContracting := [2]
  lhsBatch := [0]
  rhsBatch := [0]
  wf := dot_S2x64x64_S2x64x64_S2x64x64_2_1_1_2_0_0_wf
def dot_S2x64x64_S2x64x128_S2x64x128_2_1_1_2_0_0 : DotDims S2x64x64 S2x64x128 S2x64x128 where
  lhsContracting := [2]
  rhsContracting := [1]
  lhsNonContracting := [1]
  rhsNonContracting := [2]
  lhsBatch := [0]
  rhsBatch := [0]
  wf := dot_S2x64x64_S2x64x128_S2x64x128_2_1_1_2_0_0_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩
abbrev S2x64x128 : Shape := ⟨3, ![2, 64, 128]⟩
abbrev S_ : Shape := ⟨0, ![]⟩
abbrev S2x64 : Shape := ⟨2, ![2, 64]⟩
abbrev S2x64x1 : Shape := ⟨3, ![2, 64, 1]⟩
abbrev S2x64x64 : Shape := ⟨3, ![2, 64, 64]⟩
abbrev S64x64 : Shape := ⟨2, ![64, 64]⟩
abbrev S1x64x64 : Shape := ⟨3, ![1, 64, 64]⟩
abbrev S2 : Shape := ⟨1, ![2]⟩
abbrev S2x1x1 : Shape := ⟨3, ![2, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S16384x128, .f32⟩
  | .hbm, ⟨4, _⟩ => ⟨S2x64x128, .f32⟩
  | .hbm, ⟨5, _⟩ => ⟨S_, .f32⟩
  | .hbm, ⟨6, _⟩ => ⟨S2x64, .f32⟩
  | .hbm, ⟨7, _⟩ => ⟨S2x64x1, .f32⟩
  | .hbm, ⟨8, _⟩ => ⟨S_, .f32⟩
  | .hbm, ⟨9, _⟩ => ⟨S2x64x1, .f32⟩
  | .hbm, ⟨10, _⟩ => ⟨S2x64x1, .f32⟩
  | .hbm, ⟨11, _⟩ => ⟨S2x64x128, .f32⟩
  | .hbm, ⟨12, _⟩ => ⟨S2x64x128, .f32⟩
  | .hbm, ⟨13, _⟩ => ⟨S2x64x64, .f32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S1x64x64, .f32⟩
  | .hbm, ⟨25, _⟩ => ⟨S2x64x64, .f32⟩
  | .hbm, ⟨26, _⟩ => ⟨S2x64x64, .f32⟩
  | .hbm, ⟨27, _⟩ => ⟨S2x64x64, .f32⟩
  | .hbm, ⟨28, _⟩ => ⟨S_, .f32⟩
  | .hbm, ⟨29, _⟩ => ⟨S2, .f32⟩
  | .hbm, ⟨30, _⟩ => ⟨S2x1x1, .f32⟩
  | .hbm, ⟨31, _⟩ => ⟨S2x1x1, .f32⟩
  | .hbm, ⟨32, _⟩ => ⟨S2x64x64, .f32⟩
  | .hbm, ⟨33, _⟩ => ⟨S2x64x64, .f32⟩
  | .hbm, ⟨34, _⟩ => ⟨S2x64x64, .f32⟩
  | .hbm, ⟨35, _⟩ => ⟨S2x64x64, .f32⟩
  | .hbm, ⟨36, _⟩ => ⟨S2x64x64, .f32⟩
  | .hbm, ⟨37, _⟩ => ⟨S_, .f32⟩
  | .hbm, ⟨38, _⟩ => ⟨S2x64x64, .f32⟩
  | .hbm, ⟨39, _⟩ => ⟨S2x64x64, .f32⟩
  | .hbm, ⟨40, _⟩ => ⟨S2x64x64, .f32⟩
  | .hbm, ⟨41, _⟩ => ⟨S_, .f32⟩
  | .hbm, ⟨42, _⟩ => ⟨S2x64x64, .f32⟩
  | .hbm, ⟨43, _⟩ => ⟨S2x64x64, .f32⟩
  | .hbm, ⟨44, _⟩ => ⟨S2x64x64, .f32⟩
  | .hbm, ⟨45, _⟩ => ⟨S2x64x64, .f32⟩
  | .hbm, ⟨46, _⟩ => ⟨S2x64x64, .f32⟩
  | .hbm, ⟨47, _⟩ => ⟨S_, .f32⟩
  | .hbm, ⟨48, _⟩ => ⟨S2x64x64, .f32⟩
  | .hbm, ⟨49, _⟩ => ⟨S2x64x64, .f32⟩
  | .hbm, ⟨50, _⟩ => ⟨S2x64x64, .f32⟩
  | .hbm, ⟨51, _⟩ => ⟨S_, .f32⟩
  | .hbm, ⟨52, _⟩ => ⟨S2x64x64, .f32⟩
  | .hbm, ⟨53, _⟩ => ⟨S2x64x64, .f32⟩
  | .hbm, ⟨54, _⟩ => ⟨S2x64x64, .f32⟩
  | .hbm, ⟨55, _⟩ => ⟨S2x64x64, .f32⟩
  | .hbm, ⟨56, _⟩ => ⟨S2x64x64, .f32⟩
  | .hbm, ⟨57, _⟩ => ⟨S_, .f32⟩
  | .hbm, ⟨58, _⟩ => ⟨S2x64x64, .f32⟩
  | .hbm, ⟨59, _⟩ => ⟨S2x64x64, .f32⟩
  | .hbm, ⟨60, _⟩ => ⟨S2x64x64, .f32⟩
  | .hbm, ⟨61, _⟩ => ⟨S_, .f32⟩
  | .hbm, ⟨62, _⟩ => ⟨S2x64x64, .f32⟩
  | .hbm, ⟨63, _⟩ => ⟨S2x64x64, .f32⟩
  | .hbm, ⟨64, _⟩ => ⟨S2x64x64, .f32⟩
  | .hbm, ⟨65, _⟩ => ⟨S2x64x64, .f32⟩
  | .hbm, ⟨66, _⟩ => ⟨S2x64x64, .f32⟩
  | .hbm, ⟨67, _⟩ => ⟨S_, .f32⟩
  | .hbm, ⟨68, _⟩ => ⟨S2x64x64, .f32⟩
  | .hbm, ⟨69, _⟩ => ⟨S2x64x64, .f32⟩
  | .hbm, ⟨70, _⟩ => ⟨S2x64x64, .f32⟩
  | .hbm, ⟨71, _⟩ => ⟨S_, .f32⟩
  | .hbm, ⟨72, _⟩ => ⟨S2x64x64, .f32⟩
  | .hbm, ⟨73, _⟩ => ⟨S2x64x64, .f32⟩
  | .hbm, ⟨74, _⟩ => ⟨S2x64x64, .f32⟩
  | .hbm, ⟨75, _⟩ => ⟨S2x64x128, .f32⟩
  | .hbm, ⟨76, _⟩ => ⟨S2x1x1, .f32⟩
  | .hbm, ⟨77, _⟩ => ⟨S2x64x128, .f32⟩
  | .hbm, ⟨78, _⟩ => ⟨S2x64x128, .f32⟩
  | .hbm, ⟨79, _⟩ => ⟨S128x128, .f32⟩
  | .hbm, ⟨80, _⟩ => ⟨S16384x128, .f32⟩
  | .hbm, ⟨81, _⟩ => ⟨S_, .f32⟩
  | .hbm, ⟨82, _⟩ => ⟨S16384x128, .f32⟩
  | .hbm, ⟨83, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_cst : Ref sig .tc := ⟨.hbm, 81, rfl⟩
abbrev main_call0_v0 : Ref sig .tc := ⟨.hbm, 82, rfl⟩
abbrev main_v65 : Ref sig .tc := ⟨.hbm, 83, rfl⟩

abbrev nD : Nat := 1
abbrev τ : Topo := Topo.v7x

variable {F : FTy → Type} [FloatOps F]

class Facts₀ : Prop where
  shapeCasts_S128x128_S2x64x128 : S128x128.ShapeCasts S2x64x128
  reducesTo_S2x64x128_S2x64_d2 : S2x64x128.ReducesTo [2] S2x64
  h_S_ : 0 < S_.numel
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x128_0_1_2 : S2x64x1.BroadcastsInDim S2x64x128 (![0, 1, 2] : Fin 3 → Fin S2x64x128.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S2x64x64_0_1_2 : S1x64x64.BroadcastsInDim S2x64x64 (![0, 1, 2] : Fin 3 → Fin S2x64x64.rank)
  reducesTo_S2x64x64_S2_d1_2 : S2x64x64.ReducesTo [1, 2] S2
  bcast_S2_S2x1x1_0 : S2.BroadcastsInDim S2x1x1 (![0] : Fin 1 → Fin S2x1x1.rank)
  bcast_S2x1x1_S2x64x64_0_1_2 : S2x1x1.BroadcastsInDim S2x64x64 (![0, 1, 2] : Fin 3 → Fin S2x64x64.rank)
  bcast_S64x64_S2x64x64_1_2 : S64x64.BroadcastsInDim S2x64x64 (![1, 2] : Fin 2 → Fin S2x64x64.rank)
  bcast_S_S2x64x64 : S_.BroadcastsInDim S2x64x64 (![] : Fin 0 → Fin S2x64x64.rank)
  bcast_S2x1x1_S2x64x128_0_1_2 : S2x1x1.BroadcastsInDim S2x64x128 (![0, 1, 2] : Fin 3 → Fin S2x64x128.rank)
  shapeCasts_S2x64x128_S128x128 : S2x64x128.ShapeCasts S128x128
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S2x64x128_S2x64x128_S2x64x64_2_2_1_1_0_0_wf : DotDims.WF S2x64x128 S2x64x128 S2x64x64 [2] [2] [1] [1] [0] [0]
  dot_S2x64x64_S2x64x64_S2x64x64_2_1_1_2_0_0_wf : DotDims.WF S2x64x64 S2x64x64 S2x64x64 [2] [1] [1] [2] [0] [0]
  dot_S2x64x64_S2x64x128_S2x64x128_2_1_1_2_0_0_wf : DotDims.WF S2x64x64 S2x64x128 S2x64x128 [2] [1] [1] [2] [0] [0]
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S2x64x128_S2x64x128_S2x64x64_2_2_1_1_0_0 : DotDims S2x64x128 S2x64x128 S2x64x64 where
  lhsContracting := [2]
  rhsContracting := [2]
  lhsNonContracting := [1]
  rhsNonContracting := [1]
  lhsBatch := [0]
  rhsBatch := [0]
  wf := dot_S2x64x128_S2x64x128_S2x64x64_2_2_1_1_0_0_wf
def dot_S2x64x64_S2x64x64_S2x64x64_2_1_1_2_0_0 : DotDims S2x64x64 S2x64x64 S2x64x64 where
  lhsContracting := [2]
  rhsContracting := [1]
  lhsNonContracting := [1]
  rhsNonContracting := [2]
  lhsBatch := [0]
  rhsBatch := [0]
  wf := dot_S2x64x64_S2x64x64_S2x64x64_2_1_1_2_0_0_wf
def dot_S2x64x64_S2x64x128_S2x64x128_2_1_1_2_0_0 : DotDims S2x64x64 S2x64x128 S2x64x128 where
  lhsContracting := [2]
  rhsContracting := [1]
  lhsNonContracting := [1]
  rhsNonContracting := [2]
  lhsBatch := [0]
  rhsBatch := [0]
  wf := dot_S2x64x64_S2x64x128_S2x64x128_2_1_1_2_0_0_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.WeightTransform.lean ====
/-
  The weight transform is one function on both sides, and the reference's result over it.

  Both programs first turn the 128 × 128 weight into an orthogonalised weight by the same 76 host operations in the
  same order with the same constants: the weight is split into two groups of 64 rows, each row is centred, the groups'
  Gram matrices are regularised and scaled by their Frobenius norms, four Newton-Schulz steps
  `B ← 1.5·B − 0.5·B³·S` run from the identity, and `B` times the centred rows, divided by the square root of the norm,
  is laid out again as 128 × 128. (That reading is the source function's, the same text in both programs; the proof
  below does not depend on it and checks none of it.) Nothing of the transform is opened here: each program's
  transformed weight is the contents its own operations leave in the buffer that holds it, and what is proved is only
  that the two are the same expression of the weight, operation for operation, so that they are equal as soon as the
  two weights are — at any float instance.

  The reference then takes `g · h`, multiplies by the transformed weight and clamps below at zero.
-/
import proofs.«102250_j60498909331914_1_alg».proof.Proof.Gen.KernelIdeal.Frame
import proofs.«102250_j60498909331914_1_alg».proof.Proof.RefRun

noncomputable section

open Idealize.ShloMosaic Idealize.ShloMosaic.TcCoe Idealize.SL.Sem Idealize.ShloMosaic.StableHlo

namespace Cert.WeightTransform

variable {F : FTy → Type} [FloatOps F]

set_option maxRecDepth 8192 in
set_option maxHeartbeats 4000000 in
/-- From equal weights the reference's host operations and the kernel's leave the same transformed weight. -/
theorem same (MK : Valuation Cert.KernelIdeal.τ Cert.KernelIdeal.sig (Elt F)) (MR : Valuation Cert.ReferenceIdeal.τ Cert.ReferenceIdeal.sig (Elt F))
    (h : (MR (Proc.devRef .tc Cert.ReferenceIdeal.main_arg2) : (⟨Cert.KernelIdeal.S128x128, .f32⟩ : BufTy).Contents (Elt F)) = MK (Proc.devRef .tc Cert.KernelIdeal.main_arg2)) :
    (after (Cert.ReferenceIdeal.ValueP.ops (F := F)) MR (Proc.devRef .tc Cert.ReferenceIdeal.main_v63) : (⟨Cert.KernelIdeal.S128x128, .f32⟩ : BufTy).Contents (Elt F))
      = after (Cert.KernelIdeal.Gen.hostOps0 (F := F)) MK (Proc.devRef .tc Cert.KernelIdeal.main_v62) := by
  after_results_simp
  rw [h]
  rfl

section Reference

open Cert.ReferenceIdeal Cert.ReferenceIdeal.Gen

set_option maxRecDepth 8192 in
set_option maxHeartbeats 4000000 in
/-- The reference's result: `g · h`, times the transformed weight, clamped below at zero. -/
theorem reference_result (MR : Valuation τ sig (Elt F)) :
    (after (Cert.ReferenceIdeal.ValueP.ops (F := F)) MR (Proc.devRef .tc main_v65) : (⟨S16384x128, .f32⟩ : BufTy).Contents (Elt F))
      = maximumf
          (Host.dotGeneral dot_S16384x128_S128x128_S16384x128_1_0_0_1_n_n none
            (Host.dotGeneral dot_S16384x16384_S16384x128_S16384x128_1_0_0_1_n_n none
              (MR (Proc.devRef .tc main_arg0)) (MR (Proc.devRef .tc main_arg1)))
            (after (Cert.ReferenceIdeal.ValueP.ops (F := F)) MR (Proc.devRef .tc main_v63)))
          (broadcastInDim S16384x128 ![] bcast_S_S16384x128 (constant S_ .f32 0x00000000#32)) := by
  after_results_simp
  rfl

end Reference

end Cert.WeightTransform

end
-- ==== Proof.KernelPieces.lean ====
/-
  What one run of the kernel body leaves behind, as values.

  The body keeps a running block `acc` (1024 × 128) in a scratch buffer that survives from one grid point to the next.
  At a point it may first reset `acc` to zero (first contraction step only), then always replaces `acc` by
  `acc + gblk · hblk` for the point's blocks of `g` (1024 × 2048) and `h` (2048 × 128), and at the last contraction
  step also stores `relu(acc · t)` into the output block, reading back the `acc` it has just stored.
  So, with `step gblk hblk a` the body's "add this block's product to `a`" and `finish a t` its "multiply by `t`
  and clamp below at zero":
    first step   : the scratch ends at  step gblk hblk 0            (the zero it has just stored, read back)
    middle steps : the scratch ends at  step gblk hblk acc
    last step    : the scratch ends at  step gblk hblk acc,  the output block at  finish (step gblk hblk acc) t.
  Each is one whole-buffer store whose loads read whole buffers (or, for a read-back, the whole store before it), so the
  buffer's final contents are that store's value.
-/
import proofs.«102250_j60498909331914_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the buffer's origin. -/
theorem origin : (![0, 0] : Fin 2 → Nat) = fun _ => 0 := funext fun a => by fin_cases a <;> rfl

/-- FIRST CONTRACTION STEP: the scratch ends at the block product added to the zero block just stored. -/
theorem scratch_first (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x128 .f32) (x2 : Vec F S128x128 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) origin, View.readCov_unit_zero (S := S1024x128) _ origin]
  simp only [View.readAt_eq_ld, harg2.read_unread, harg3.read_unread, View.ld_unit_zero (S := S1024x2048) origin,
    View.ld_unit_zero (S := S2048x128) origin]

/-- A MIDDLE CONTRACTION STEP: the scratch ends at the block product added to what the point before left. -/
theorem scratch_middle (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x128 .f32) (x2 : Vec F S128x128 .f32) (xs0 : Vec F S1024x128 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin]
  simp only [View.readAt_eq_ld, harg2.read_unread, harg3.read_unread, harg6.read_unread, View.ld_unit_zero (S := S1024x2048) origin,
    View.ld_unit_zero (S := S2048x128) origin, View.ld_unit_zero (S := S1024x128) origin]

/-- THE LAST CONTRACTION STEP leaves the same in the scratch, -/
theorem scratch_last (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x128 .f32) (x2 : Vec F S128x128 .f32) (xs0 : Vec F S1024x128 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg6.read_unread, View.ld_unit_zero (S := S1024x2048) origin,
    View.ld_unit_zero (S := S2048x128) origin, View.ld_unit_zero (S := S1024x128) origin]

/-- and in the output block the finished value of that same running block, read back from the scratch. -/
theorem out_last (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x128 .f32) (x2 : Vec F S128x128 .f32) (xs0 : Vec F S1024x128 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin, View.readCov_unit_zero (S := S1024x128) _ origin]
  simp only [View.readAt_eq_ld, harg2.read_unread, harg3.read_unread, harg4.read_unread, harg6.read_unread,
    View.ld_unit_zero (S := S1024x2048) origin, View.ld_unit_zero (S := S2048x128) origin,
    View.ld_unit_zero (S := S1024x128) origin, View.ld_unit_zero (S := S128x128) origin]

end Cert.KernelIdeal.Pieces

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.KernelPayload.lean ====
/-
  The body's three stored values read at an index, on the extended reals.

  At the ideal instance a change of float format is the identity and a matrix product into a zero accumulator is the
  plain sum of products, so at row `r` and column `n`:
    the reset value       is  0;
    the accumulating step is  acc[r, n] + Σ_{k < 2048} gblk[r, k] · hblk[k, n];
    the finishing step    is  max (Σ_{j < 128} acc[r, j] · t[j, n]) 0.
-/
import proofs.«102250_j60498909331914_1_alg».proof.Proof.Gen.KernelIdeal.Skeleton
import proofs.«102250_j60498909331914_1_alg».proof.Proof.LibPlainMatmul
import Idealize.ShloMosaic.Lib.Pipeline.Value
import Idealize.ShloMosaic.Lib.ValueIdx

noncomputable section

open Idealize.ShloMosaic Idealize.ShloMosaic.TcCoe Idealize.ShloMosaic.ValueIdx
open scoped BigOperators

namespace Cert.KernelIdeal.Payload

open Cert.KernelIdeal Cert.KernelIdeal.Gen

/-- The reset stores zero everywhere. -/
theorem reset_apply (r : Fin 1024) (n : Fin 128) : k0_pay1 (F := Ideal) (ix2 r n) = 0 := by
  unfold k0_pay1
  refine (congrFun (shapeCast_self _ _) (ix2 r n)).trans ?_
  exact Ideal.ofBits_zero_f32

/-- The accumulating step adds the product of the point's two blocks, entry by entry, to what it is given. -/
theorem step_apply (gblk : Vec Ideal S1024x2048 .f32) (hblk : Vec Ideal S2048x128 .f32) (acc : Vec Ideal S1024x128 .f32)
    (r : Fin 1024) (n : Fin 128) :
    k0_pay2 (F := Ideal) gblk hblk acc (ix2 r n) = acc (ix2 r n) + ∑ k : Fin 2048, gblk (ix2 r k) * hblk (ix2 k n) := by
  unfold k0_pay2
  refine (congrFun (shapeCast_self _ _) (ix2 r n)).trans ?_
  exact congrArg (acc (ix2 r n) + ·)
    (Cert.PlainMatmul.matmul_zero_apply dot_S1024x2048_S2048x128_S1024x128_1_0_0_1_n_n rfl rfl rfl rfl rfl rfl none
      (truncf .bf16 gblk bitsLt_bf16_f32) (truncf .bf16 hblk bitsLt_bf16_f32) r n)

/-- The finishing step multiplies the running block by the weight and clamps below at zero. -/
theorem finish_apply (acc : Vec Ideal S1024x128 .f32) (t : Vec Ideal S128x128 .f32) (r : Fin 1024) (n : Fin 128) :
    k0_pay3 (F := Ideal) acc t (ix2 r n) = max (∑ j : Fin 128, acc (ix2 r j) * t (ix2 j n)) 0 := by
  unfold k0_pay3
  have hcast : shapeCast S128x128 t shapeCasts_S128x128_S128x128 = t := shapeCast_self _ _
  show max (matmul dot_S1024x128_S128x128_S1024x128_1_0_0_1_n_n none (truncf .bf16 acc bitsLt_bf16_f32)
      (truncf .bf16 (shapeCast S128x128 t shapeCasts_S128x128_S128x128) bitsLt_bf16_f32) (constant S1024x128 .f32 0x00000000#32) (ix2 r n))
      (Ideal.ofBits .f32 0x00000000#32) = _
  rw [hcast, Ideal.ofBits_zero_f32]
  exact congrArg (max · 0)
    (Cert.PlainMatmul.matmul_zero_apply dot_S1024x128_S128x128_S1024x128_1_0_0_1_n_n rfl rfl rfl rfl rfl rfl none
      (truncf .bf16 acc bitsLt_bf16_f32) (truncf .bf16 t bitsLt_bf16_f32) r n)

end Cert.KernelIdeal.Payload

end
-- ==== Proof.Spec.lean ====
/-
  The specification of the graph layer, and the one law the equivalence needs.

  For a square array `g` (16384 × 16384), features `h` (16384 × 128) and a square weight `t` (128 × 128) the layer is
  `relu((g · h) · t)`: at row `r` and column `c`,
      max (Σ_j (Σ_k g[r, k] · h[k, j]) · t[j, c]) 0
  on the extended reals. A kernel that walks the contraction axis `k` in 8 consecutive blocks of 2048 adds up, block
  after block, the partial sums Σ_{kk < 2048} g[r, s·2048 + kk] · h[s·2048 + kk, j]; that this is the whole sum over
  `k` is a regrouping of a finite sum, which needs only that addition is commutative and associative (true of the
  extended reals at the infinities too), never that the terms are finite.

  To let a fold over grid points carry the addends without bound proofs, a two-axis array is also read at a pair of
  NATURAL numbers: its entry inside its extents, zero outside (the outside values are never used).
-/
import Idealize.ShloMosaic.PureOps.Ideal
import Idealize.ShloMosaic.Lib.ValueIdx
import Mathlib.Algebra.BigOperators.Fin
import Mathlib.Algebra.BigOperators.Intervals

noncomputable section

namespace Cert.GraphLayer

open Idealize.ShloMosaic Idealize.ShloMosaic.ValueIdx
open scoped BigOperators

/-! ## Reading a two-axis array at natural coordinates -/

/-- The entry at `(a, b)` when both are inside the extents, zero otherwise. -/
def rd2 {n0 n1 : ℕ} (x : (⟨2, ![n0, n1]⟩ : Shape).Idx → EReal) (a b : ℕ) : EReal :=
  if h : a < n0 ∧ b < n1 then x (ix2 ⟨a, h.1⟩ ⟨b, h.2⟩) else 0

/-- Inside the extents the reading is the entry. -/
theorem rd2_ix2 {n0 n1 : ℕ} (x : (⟨2, ![n0, n1]⟩ : Shape).Idx → EReal) (a : Fin n0) (b : Fin n1) :
    rd2 x a.val b.val = x (ix2 a b) := by
  unfold rd2
  rw [dif_pos ⟨a.isLt, b.isLt⟩]

/-- The same with the coordinates given as naturals below the extents. -/
theorem rd2_of_lt {n0 n1 : ℕ} (x : (⟨2, ![n0, n1]⟩ : Shape).Idx → EReal) (a b : ℕ) (ha : a < n0) (hb : b < n1) :
    rd2 x a b = x (ix2 ⟨a, ha⟩ ⟨b, hb⟩) := by
  unfold rd2
  rw [dif_pos ⟨ha, hb⟩]

/-! ## A sum taken block by block is the whole sum -/

/-- `a` consecutive blocks of `b` terms each, summed block by block, are the first `a · b` terms summed in one go. -/
theorem sum_range_blocks {M : Type*} [AddCommMonoid M] (b : ℕ) (f : ℕ → M) : ∀ a : ℕ,
    ∑ s ∈ Finset.range a, ∑ kk ∈ Finset.range b, f (s * b + kk) = ∑ k ∈ Finset.range (a * b), f k
  | 0 => by simp
  | a + 1 => by
    rw [Finset.sum_range_succ, sum_range_blocks b f a, Nat.succ_mul, Finset.sum_range_add]

/-- The same with each block's terms and the whole sum's indexed by `Fin`. -/
theorem sum_fin_blocks {M : Type*} [AddCommMonoid M] (a b : ℕ) (f : ℕ → M) :
    ∑ s ∈ Finset.range a, ∑ kk : Fin b, f (s * b + kk.val) = ∑ k : Fin (a * b), f k.val := by
  rw [Fin.sum_univ_eq_sum_range f (a * b), ← sum_range_blocks b f a]
  refine Finset.sum_congr rfl fun s _ => ?_
  exact Fin.sum_univ_eq_sum_range (fun kk => f (s * b + kk)) b

/-! ## The layer, index by index -/

/-- The aggregated features `(g · h)[r, j]`, read at natural coordinates. -/
def agg (g : (⟨2, ![16384, 16384]⟩ : Shape).Idx → EReal) (h : (⟨2, ![16384, 128]⟩ : Shape).Idx → EReal) (r j : ℕ) : EReal :=
  ∑ k : Fin 16384, rd2 g r k.val * rd2 h k.val j

/-- The layer's result: `relu((g · h) · t)` at each index. -/
def layer (g : (⟨2, ![16384, 16384]⟩ : Shape).Idx → EReal) (h : (⟨2, ![16384, 128]⟩ : Shape).Idx → EReal)
    (t : (⟨2, ![128, 128]⟩ : Shape).Idx → EReal) : (⟨2, ![16384, 128]⟩ : Shape).Idx → EReal :=
  fun i => max (∑ j : Fin 128, agg g h (i 0).val j.val * t (ix2 j (i 1))) 0

/-- The layer at an index whose row is `R` and whose column is `n`. -/
theorem layer_at (g : (⟨2, ![16384, 16384]⟩ : Shape).Idx → EReal) (h : (⟨2, ![16384, 128]⟩ : Shape).Idx → EReal)
    (t : (⟨2, ![128, 128]⟩ : Shape).Idx → EReal) (i : (⟨2, ![16384, 128]⟩ : Shape).Idx) (R : ℕ) (n : Fin 128)
    (h0 : (i 0).val = R) (h1 : (i 1).val = n.val) :
    layer g h t i = max (∑ j : Fin 128, agg g h R j.val * t (ix2 j n)) 0 := by
  have e1 : i 1 = n := Fin.ext h1
  unfold layer
  rw [h0, e1]

/-- One block's addend to the aggregation: the part of `(g · h)[r, j]` that contraction block `s` contributes. -/
def blockTerm (g : (⟨2, ![16384, 16384]⟩ : Shape).Idx → EReal) (h : (⟨2, ![16384, 128]⟩ : Shape).Idx → EReal)
    (r s j : ℕ) : EReal :=
  ∑ kk : Fin 2048, rd2 g r (s * 2048 + kk.val) * rd2 h (s * 2048 + kk.val) j

/-- The eight blocks' addends make up the aggregation. -/
theorem sum_blockTerm (g : (⟨2, ![16384, 16384]⟩ : Shape).Idx → EReal) (h : (⟨2, ![16384, 128]⟩ : Shape).Idx → EReal)
    (r j : ℕ) : ∑ s ∈ Finset.range 8, blockTerm g h r s j = agg g h r j := by
  unfold blockTerm agg
  exact sum_fin_blocks 8 2048 fun k => rd2 g r k * rd2 h k j

end Cert.GraphLayer

end
-- ==== Proof.KernelBlocks.lean ====
/-
  Which entries of the arrays a grid point's blocks hold.

  The grid has 16 × 8 points; point `t` is row tile `t / 8` and contraction step `t % 8`. At point `t`
    the block of `g` (1024 × 2048) holds  g[(t / 8)·1024 + r, (t % 8)·2048 + k],
    the block of `h` (2048 × 128)  holds  h[(t % 8)·2048 + k, n],
    the block of the transformed weight (128 × 128) is the whole array, the same at every point.
  The arrays are the ones the region finds on entry: `g` and `h` as launched, the weight as the host operations
  before the region left it.
-/
import proofs.«102250_j60498909331914_1_alg».proof.Proof.Gen.KernelIdeal.Frame
import proofs.«102250_j60498909331914_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.GraphLayer

variable (m : (ℓ : Loc nD τ sig) → Buf (Elt Ideal) ℓ)

/-- The three arrays as the region finds them, and the three blocks at a point, each at its literal shape. -/
abbrev garr (c : Dev nD) : Vec Ideal S16384x16384 .f32 := V m c main_arg0
abbrev harr (c : Dev nD) : Vec Ideal S16384x128 .f32 := V m c main_arg1
abbrev warr (c : Dev nD) : Vec Ideal S128x128 .f32 := V m c main_v62
abbrev gblk (c : Dev nD) (t : Fin cfg0.N) : Vec Ideal S1024x2048 .f32 := iblk m c 0 t
abbrev hblk (c : Dev nD) (t : Fin cfg0.N) : Vec Ideal S2048x128 .f32 := iblk m c 1 t
abbrev wblk (c : Dev nD) (t : Fin cfg0.N) : Vec Ideal S128x128 .f32 := iblk m c 2 t

theorem point_lt (t : Fin cfg0.N) : t.val < 128 := lt_of_lt_of_eq t.isLt (show cfg0.N = 128 from N_0)

/-- The three windows' block indices at a point: (row tile, step), (step, 0), (0, 0). -/
theorem index_g : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem index_h : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem index_w : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The block of `g` at point `t`. -/
theorem gblk_apply (c : Dev nD) (t : Fin cfg0.N) (r : Fin 1024) (k : Fin 2048) :
    gblk m c t (ix2 r k) = rd2 (garr m c) (t.val / 8 * 1024 + r.val) (t.val % 8 * 2048 + k.val) := by
  have ht := point_lt t
  have hr := r.isLt
  have hk := k.isLt
  rw [rd2_of_lt _ _ _ (by omega) (by omega)]
  show iblk m c 0 t (ix2 r k) = V m c main_arg0 _
  unfold iblk
  rw [View.read_apply]
  show V m c main_arg0 _ = V m c main_arg0 _
  congr 1
  funext a
  apply Fin.ext
  match a with
  | ⟨0, _⟩ => show win0_0.index t 0 * 1024 + 1 * r.val = t.val / 8 * 1024 + r.val; rw [(index_g t).1]; omega
  | ⟨1, _⟩ => show win0_0.index t 1 * 2048 + 1 * k.val = t.val % 8 * 2048 + k.val; rw [(index_g t).2]; omega

/-- The block of `h` at point `t`. -/
theorem hblk_apply (c : Dev nD) (t : Fin cfg0.N) (k : Fin 2048) (n : Fin 128) :
    hblk m c t (ix2 k n) = rd2 (harr m c) (t.val % 8 * 2048 + k.val) n.val := by
  have ht := point_lt t
  have hk := k.isLt
  have hn := n.isLt
  rw [rd2_of_lt _ _ _ (by omega) (by omega)]
  show iblk m c 1 t (ix2 k n) = V m c main_arg1 _
  unfold iblk
  rw [View.read_apply]
  show V m c main_arg1 _ = V m c main_arg1 _
  congr 1
  funext a
  apply Fin.ext
  match a with
  | ⟨0, _⟩ => show win0_1.index t 0 * 2048 + 1 * k.val = t.val % 8 * 2048 + k.val; rw [(index_h t).1]; omega
  | ⟨1, _⟩ => show win0_1.index t 1 * 128 + 1 * n.val = n.val; rw [(index_h t).2]; omega

/-- The weight's block is the whole transformed weight. -/
theorem wblk_apply (c : Dev nD) (t : Fin cfg0.N) (j n : Fin 128) :
    wblk m c t (ix2 j n) = warr m c (ix2 j n) := by
  show iblk m c 2 t (ix2 j n) = V m c main_v62 _
  unfold iblk
  rw [View.read_apply]
  show V m c main_v62 _ = V m c main_v62 _
  congr 1
  funext a
  apply Fin.ext
  match a with
  | ⟨0, _⟩ => show win0_2.index t 0 * 128 + 1 * j.val = j.val; rw [(index_w t).1]; omega
  | ⟨1, _⟩ => show win0_2.index t 1 * 128 + 1 * n.val = n.val; rw [(index_w t).2]; omega

end Cert.KernelIdeal.Blocks

end
-- ==== Proof.KernelAcc.lean ====
/-
  What the running block holds after each grid point.

  Point `t` is row tile `q = t / 8` at contraction step `s = t % 8`. Its addend to the running block is, at `(r, n)`,
      Σ_{kk < 2048} g[q·1024 + r, s·2048 + kk] · h[s·2048 + kk, n],
  the part of `(g · h)[q·1024 + r, n]` that contraction block `s` contributes. The first step of a run of eight resets
  the block to zero and adds its addend; each later step adds its own to what the step before left. So after step
  `s` the block holds the sum of the addends of steps `0 … s`, and after the eighth step the whole
  `(g · h)[q·1024 + r, n]`: the eight blocks' partial sums regroup to the sum over the whole contraction axis.
-/
import proofs.«102250_j60498909331914_1_alg».proof.Proof.Gen.KernelIdeal.Value
import proofs.«102250_j60498909331914_1_alg».proof.Proof.KernelPieces
import proofs.«102250_j60498909331914_1_alg».proof.Proof.KernelPayload
import proofs.«102250_j60498909331914_1_alg».proof.Proof.KernelBlocks
import proofs.«102250_j60498909331914_1_alg».proof.Proof.Spec

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen Cert.KernelIdeal.Value Cert.KernelIdeal.Blocks Cert.GraphLayer

variable (m : (ℓ : Loc nD τ sig) → Buf (Elt Ideal) ℓ)

/-- Point `n`'s addend to the running block, at a block index. -/
def addend (c : Dev nD) (n : ℕ) (i : S1024x128.Idx) : EReal :=
  blockTerm (garr m c) (harr m c) (n / 8 * 1024 + (i 0).val) (n % 8) (i 1).val

/-- Within the run of row tile `q`, step `s`'s addend is contraction block `s`'s part of row `q·1024 + r`. -/
theorem addend_run (c : Dev nD) (q s : ℕ) (hs : s < 8) (i : S1024x128.Idx) :
    addend m c (8 * q + s) i = blockTerm (garr m c) (harr m c) (q * 1024 + (i 0).val) s (i 1).val := by
  unfold addend
  rw [show (8 * q + s) / 8 = q by omega, show (8 * q + s) % 8 = s by omega]

/-- The accumulating step at point `t` adds the point's addend to what it is given. -/
theorem step_at (c : Dev nD) (t : Fin cfg0.N) (a : Vec Ideal S1024x128 .f32) (i : S1024x128.Idx) :
    k0_pay2 (F := Ideal) (gblk m c t) (hblk m c t) a i = a i + addend m c t.val i := by
  obtain ⟨r, n, rfl⟩ : ∃ (r : Fin 1024) (n : Fin 128), i = ix2 r n := ⟨i 0, i 1, eq_ix2 i⟩
  rw [Payload.step_apply]
  refine congrArg (a (ix2 r n) + ·) ?_
  show _ = blockTerm (garr m c) (harr m c) (t.val / 8 * 1024 + r.val) (t.val % 8) n.val
  unfold blockTerm
  refine Finset.sum_congr rfl fun k _ => ?_
  rw [gblk_apply, hblk_apply]

/-- What a point leaves in the scratch: at a run's first point the step over the zero block, -/
theorem left_first (c : Dev nD) (n : ℕ) (hb : n < cfg0.N) (h0 : n % 8 = 0) (a : Vec Ideal S1024x128 .f32) :
    scAt0_0 m c n hb a = k0_pay2 (F := Ideal) (gblk m c ⟨n, hb⟩) (hblk m c ⟨n, hb⟩) (k0_pay1 (F := Ideal)) := by
  unfold scAt0_0
  rw [dif_pos h0, dif_neg (by omega)]
  exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
    (iblk m c 0 ⟨n, hb⟩) (iblk m c 1 ⟨n, hb⟩) (iblk m c 2 ⟨n, hb⟩)

/-- at every later point the step over what the point before left. -/
theorem left_later (c : Dev nD) (n : ℕ) (hb : n < cfg0.N) (h0 : ¬n % 8 = 0) (a : Vec Ideal S1024x128 .f32) :
    scAt0_0 m c n hb a = k0_pay2 (F := Ideal) (gblk m c ⟨n, hb⟩) (hblk m c ⟨n, hb⟩) a := by
  unfold scAt0_0
  by_cases h1 : n % 8 = 7
  · rw [dif_neg h0, dif_pos h1]
    exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
      (iblk m c 0 ⟨n, hb⟩) (iblk m c 1 ⟨n, hb⟩) (iblk m c 2 ⟨n, hb⟩) a
  · rw [dif_neg h0, dif_neg h1]
    exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
      (iblk m c 0 ⟨n, hb⟩) (iblk m c 1 ⟨n, hb⟩) (iblk m c 2 ⟨n, hb⟩) a

/-- THE RUNNING BLOCK after point `t`: the addends of its run's steps up to `t`, summed. -/
theorem running (c : Dev nD) (t : Fin cfg0.N) (i : S1024x128.Idx) :
    (outsAt0 m c t.val t.isLt).2 i = 0 + ∑ s ∈ Finset.range (t.val % 8 + 1), addend m c (8 * (t.val / 8) + s) i := by
  have hN : cfg0.N = 128 := N_0
  rw [soutsAt0_0_eq m c t]
  refine Pipeline.accAt_add_apply (fun n h => scAt0_0 m c n h (VS0_0.read (Elt Ideal) VS0_0.junk)) (scAt0_0 m c)
    (fun _ => (0 : EReal)) (addend m c) (8 * (t.val / 8)) 7 ?_ ?_ (t.val % 8) (by omega) _ i
  · intro h j
    show scAt0_0 m c (8 * (t.val / 8)) h _ j = 0 + addend m c (8 * (t.val / 8)) j
    rw [left_first m c _ h (by omega), step_at m c ⟨8 * (t.val / 8), h⟩]
    refine congrArg (· + addend m c (8 * (t.val / 8)) j) ?_
    obtain ⟨r, n, rfl⟩ : ∃ (r : Fin 1024) (n : Fin 128), j = ix2 r n := ⟨j 0, j 1, eq_ix2 j⟩
    exact Payload.reset_apply r n
  · intro n h a j hlt hle
    show scAt0_0 m c n h a j = a j + addend m c n j
    rw [left_later m c n h (by omega) a]
    exact step_at m c ⟨n, h⟩ a j

/-- After a run's eighth step the running block holds the whole aggregation for its rows. -/
theorem full (c : Dev nD) (t : Fin cfg0.N) (h7 : t.val % 8 = 7) (i : S1024x128.Idx) :
    (outsAt0 m c t.val t.isLt).2 i = agg (garr m c) (harr m c) (t.val / 8 * 1024 + (i 0).val) (i 1).val := by
  rw [running m c t i, h7, zero_add,
    Finset.sum_congr rfl fun s hs => addend_run m c (t.val / 8) s (Finset.mem_range.mp hs) i]
  exact sum_blockTerm _ _ _ _

end Cert.KernelIdeal.Acc

end
-- ==== Proof.KernelFinal.lean ====
/-
  The kernel's result array.

  The output block of row tile `q` is written back once, after the tile's eighth contraction step (point `8q + 7`), and
  holds there `relu(acc · w)` for the running block `acc`, which by then is the whole `(g · h)` for rows
  `q·1024 … q·1024 + 1023`, and the transformed weight `w`. That is block `q` of the layer's result
  `relu((g · h) · w)`; the sixteen tiles' blocks cover the 16384 rows, so the array ends holding the layer's result.
-/
import proofs.«102250_j60498909331914_1_alg».proof.Proof.KernelAcc

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Value Cert.KernelIdeal.Blocks Cert.GraphLayer

variable (m : (ℓ : Loc nD τ sig) → Buf (Elt Ideal) ℓ) (ρ : Dev nD → PrngReg)

/-- The output window's block index at a point: (row tile, 0). -/
theorem index_o : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- At a run's last point the output's staging buffer holds the finished value of the running block the same point
    leaves in the scratch. -/
theorem out_at_last (c : Dev nD) (t : Fin cfg0.N) (h0 : ¬t.val % 8 = 0) (h7 : t.val % 8 = 7) :
    (outsAt0 m c t.val t.isLt).1 = k0_pay3 (F := Ideal) ((outsAt0 m c t.val t.isLt).2) (wblk m c t) := by
  rw [outsAt0_C m c t h0 h7]
  dsimp only
  refine (Pieces.out_last (F := Ideal) c (grid0.coords t) (ms0_0 t) (hs0_0 t) (ms0_1 t) (hs0_1 t) (ms0_2 t) (hs0_2 t) (ms0_3 t) (hs0_3 t) scM0_0 (Memref.isWhole_whole _) _ _
    (iblk m c 0 t) (iblk m c 1 t) (iblk m c 2 t) _).trans ?_
  exact congrArg (fun a => k0_pay3 (F := Ideal) a (iblk m c 2 t))
    (Pieces.scratch_last (F := Ideal) c (grid0.coords t) (ms0_0 t) (hs0_0 t) (ms0_1 t) (hs0_1 t) (ms0_2 t) (hs0_2 t) (ms0_3 t) (hs0_3 t) scM0_0 (Memref.isWhole_whole _) _ _
      (iblk m c 0 t) (iblk m c 1 t) (iblk m c 2 t) _).symm

/-- WHAT A WRITE-BACK WRITES is its block of the layer's result over the arrays the region found. -/
theorem flushed_eq (c : Dev nD) (t : Fin cfg0.N) (hf : (cfg0.win 3).flush t = true) :
    (dats m 0 c).flushed 3 t = ((cfg0.win 3).blk t).view.read (Elt Ideal) (layer (garr m c) (harr m c) (warr m c)) := by
  have h7 : t.val % 8 = 7 := (flush0_3 t).mp hf
  have h0 : ¬t.val % 8 = 0 := by omega
  rw [flushed3 m c t, out_at_last m c t h0 h7]
  funext y
  rw [View.read_apply]
  obtain ⟨r, n, rfl⟩ : ∃ (r : Fin 1024) (n : Fin 128), y = ix2 r n := ⟨y 0, y 1, eq_ix2 y⟩
  show k0_pay3 (F := Ideal) ((outsAt0 m c t.val t.isLt).2) (wblk m c t) (ix2 r n)
    = layer (garr m c) (harr m c) (warr m c) (((cfg0.win 3).blk t).view.emb (ix2 r n))
  rw [Payload.finish_apply,
    layer_at (garr m c) (harr m c) (warr m c) (((cfg0.win 3).blk t).view.emb (ix2 r n)) (t.val / 8 * 1024 + r.val) n
      (by show win0_3.index t 0 * 1024 + 1 * r.val = t.val / 8 * 1024 + r.val; rw [(index_o t).1]; omega)
      (by show win0_3.index t 1 * 128 + 1 * n.val = n.val; rw [(index_o t).2]; omega)]
  refine congrArg (max · 0) (Finset.sum_congr rfl fun j _ => ?_)
  rw [Acc.full m c t h7 (ix2 r j), wblk_apply]

/-- An index of the output array is in point `t`'s block iff each coordinate is in the block's range on its axis. -/
theorem mem_blk (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v63).slice (win0_3.rect t)).set ↔ _
  rw [View.set_slice_whole, Rect.mem_set_unit]
  exact Iff.rfl

/-- Row `R` of the output lies in the block written back at the last point of row tile `R / 1024`. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 128 := N_0
  have hb : (i 0).val / 1024 * 8 + 7 < cfg0.N := by rw [hN]; omega
  refine ⟨⟨(i 0).val / 1024 * 8 + 7, hb⟩, (flush0_3 _).mpr (by show ((i 0).val / 1024 * 8 + 7) % 8 = 7; omega), ?_⟩
  rw [mem_blk]
  have ht : (⟨(i 0).val / 1024 * 8 + 7, hb⟩ : Fin cfg0.N).val = (i 0).val / 1024 * 8 + 7 := rfl
  obtain ⟨e0, e1⟩ := index_o ⟨(i 0).val / 1024 * 8 + 7, hb⟩
  intro a
  match a with
  | ⟨0, _⟩ =>
    show win0_3.index ⟨(i 0).val / 1024 * 8 + 7, hb⟩ (0 : Fin 2) * 1024 ≤ (i 0).val
      ∧ (i 0).val < win0_3.index ⟨(i 0).val / 1024 * 8 + 7, hb⟩ (0 : Fin 2) * 1024 + 1024
    rw [e0, ht]; omega
  | ⟨1, _⟩ =>
    show win0_3.index ⟨(i 0).val / 1024 * 8 + 7, hb⟩ (1 : Fin 2) * 128 ≤ (i 1).val
      ∧ (i 1).val < win0_3.index ⟨(i 0).val / 1024 * 8 + 7, hb⟩ (1 : Fin 2) * 128 + 128
    rw [e1]; omega

/-- THE RESULT ARRAY after the run: the layer's result over the arrays the region found. -/
theorem final (c : Dev nD) : (dats m 0 c).arrAt 3 cfg0.N = layer (garr m c) (harr m c) (warr m c) :=
  (dats m 0 c).arrAt_eq_of_cover 3 (layer (garr m c) (harr m c) (warr m c)) (flushed_eq m c) cover

/-- The kernel's run, read: the result array at the layer's result of the launched `g` and `h` and the transformed
    weight; the arguments unchanged. -/
theorem run : θ_run defs (onTc (τ := τ) (main (F := Ideal))) ⟨m, fun _ => 0, ρ⟩ fun r => ∀ c : Dev nD,
      r.2.mem ((c : Thread nD τ).loc main_v63)
        = layer (m ((c : Thread nD τ).loc main_arg0)) (m ((c : Thread nD τ).loc main_arg1)) (warr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show layer (V m c main_arg0) (V m c main_arg1) (warr m c) = _
      rw [V_main_arg0 m c, V_main_arg1 m c])), (h c).2⟩)
    (Value.run_blocks m ρ)

end Cert.KernelIdeal.Final

end
-- ==== Proof.LibPlainDot.lean ====
/-
  The host's matrix product read at an index, on the extended reals.

  For dimension numbers that contract the left operand's axis 1 with the right operand's axis 0, keep the left
  operand's axis 0 and the right operand's axis 1 as the result's two axes in that order, and have no batch axis
  — an `[M, K]` array times a `[K, N]` array —, the host's `dot_general` has at `(a, v)` the entry
  `Σ_k lhs[a, k] · rhs[k, v]`, the sum taken over the `K` contraction positions in their natural order: the same
  sum, term for term and in the same order, that a product into a zero accumulator has for such dimension numbers.
  The library states the entry as a sum over the record's own contraction index set, with the operands read at the
  record's index maps; the maps are evaluated axis by axis and the sum re-indexed by the one contraction coordinate.
-/
import Idealize.ShloMosaic.PureOps.Ideal.Laws
import Idealize.ShloMosaic.Lib.ValueIdx
import proofs.«102250_j60498909331914_1_alg».proof.Proof.LibPlainMatmul

noncomputable section

namespace Cert.PlainDot

open Idealize.ShloMosaic Idealize.ShloMosaic.ValueIdx
open scoped BigOperators

variable {M K N : ℕ} (d : DotDims ⟨2, ![M, K]⟩ ⟨2, ![K, N]⟩ ⟨2, ![M, N]⟩)

/-- THE ENTRY of the host's product at `(a, v)`: the sum over `k` of `lhs[a, k] · rhs[k, v]`. -/
theorem dotGeneral_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    Host.dotGeneral d prec lhs rhs (ix2 a v) = ∑ k : Fin K, lhs (ix2 a k) * rhs (ix2 k v) := by
  show FloatOps.dotGeneral d prec .single lhs rhs (ix2 a v) = _
  rw [Ideal.dotGeneral_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact Cert.PlainMatmul.lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact Cert.PlainMatmul.rhs_col d hlb hrb hln hrn _ _
  rw [e1, e2]

end Cert.PlainDot

end
-- ==== Proof.RefLayer.lean ====
/-
  The reference's result is the layer's result.

  The reference multiplies `g` by `h`, the product by its transformed weight `w`, and clamps below at zero. Read at
  row `R` and column `n` on the extended reals, each host product is the plain sum of products over its contracted
  axis, so the result is `max (Σ_j (Σ_k g[R, k] · h[k, j]) · w[j, n]) 0`: the layer's result for `g`, `h` and `w`.
-/
import proofs.«102250_j60498909331914_1_alg».proof.Proof.RefRun
import proofs.«102250_j60498909331914_1_alg».proof.Proof.WeightTransform
import proofs.«102250_j60498909331914_1_alg».proof.Proof.LibPlainDot
import proofs.«102250_j60498909331914_1_alg».proof.Proof.Spec

noncomputable section

open Idealize.ShloMosaic Idealize.ShloMosaic.TcCoe Idealize.SL.Sem Idealize.ShloMosaic.StableHlo Idealize.ShloMosaic.ValueIdx
open scoped BigOperators

namespace Cert.ReferenceIdeal.Layer

open Cert.ReferenceIdeal Cert.ReferenceIdeal.Gen Cert.GraphLayer

/-- From any launch contents, with the transformed weight named `w`: the result buffer ends at the layer's result of
    the launched `g` and `h` and `w`. -/
theorem result_eq (MR : Valuation τ sig (Elt Ideal)) (w : (⟨S128x128, .f32⟩ : BufTy).Contents (Elt Ideal))
    (hw : (after (Cert.ReferenceIdeal.ValueP.ops (F := Ideal)) MR (Proc.devRef .tc main_v63) : (⟨S128x128, .f32⟩ : BufTy).Contents (Elt Ideal)) = w) :
    (after (Cert.ReferenceIdeal.ValueP.ops (F := Ideal)) MR (Proc.devRef .tc main_v65) : (⟨S16384x128, .f32⟩ : BufTy).Contents (Elt Ideal))
      = layer (MR (Proc.devRef .tc main_arg0)) (MR (Proc.devRef .tc main_arg1)) w := by
  rw [Cert.WeightTransform.reference_result MR, hw]
  funext i
  obtain ⟨R, n, rfl⟩ : ∃ (R : Fin 16384) (n : Fin 128), i = ix2 R n := ⟨i 0, i 1, eq_ix2 i⟩
  rw [layer_at _ _ _ (ix2 R n) R.val n rfl rfl]
  show max (Host.dotGeneral dot_S16384x128_S128x128_S16384x128_1_0_0_1_n_n none
      (Host.dotGeneral dot_S16384x16384_S16384x128_S16384x128_1_0_0_1_n_n none
        (MR (Proc.devRef .tc main_arg0)) (MR (Proc.devRef .tc main_arg1))) w (ix2 R n))
      (Ideal.ofBits .f32 0x00000000#32) = _
  rw [Ideal.ofBits_zero_f32,
    Cert.PlainDot.dotGeneral_apply dot_S16384x128_S128x128_S16384x128_1_0_0_1_n_n rfl rfl rfl rfl rfl rfl none _ w R n]
  refine congrArg (max · 0) (Finset.sum_congr rfl fun j _ => ?_)
  rw [Cert.PlainDot.dotGeneral_apply dot_S16384x16384_S16384x128_S16384x128_1_0_0_1_n_n rfl rfl rfl rfl rfl rfl none _ _ R j]
  unfold agg
  refine congrArg (· * w (ix2 j n)) (Finset.sum_congr rfl fun k _ => ?_)
  rw [rd2_ix2, rd2_ix2]

end Cert.ReferenceIdeal.Layer

end
-- ==== Proof.lean ====
/-
  The kernel computes `relu((g · h) · w)` with `w` the orthogonalised weight, tile by tile: for each tile of 1024 rows
  it adds up `g · h` over eight blocks of the contraction axis in a scratch block, then multiplies by `w` and clamps
  below at zero. The reference computes the same with whole-array products. On the extended reals the two agree: a
  change of float format is the identity, a product into a zero accumulator is the plain sum of products, and the eight
  blocks' partial sums regroup to the sum over the whole contraction axis — a regrouping of a finite sum, which holds at
  the infinities too, so the inputs' finiteness is not used. The orthogonalised weight is the same chain of host
  operations on both sides and is never opened.

  The three frames are the generated frame runs (the reference's with its result dropped); the idealization rewrote
  nothing, so there is nothing to preserve.
-/
import proofs.«102250_j60498909331914_1_alg».proof.Defs
import proofs.«102250_j60498909331914_1_alg».proof.Proof.Gen.Kernel
import proofs.«102250_j60498909331914_1_alg».proof.Proof.Gen.Kernel.Skeleton
import proofs.«102250_j60498909331914_1_alg».proof.Proof.Gen.Kernel.Launch
import proofs.«102250_j60498909331914_1_alg».proof.Proof.Gen.Kernel.Points
import proofs.«102250_j60498909331914_1_alg».proof.Proof.Gen.Kernel.Frame
import proofs.«102250_j60498909331914_1_alg».proof.Proof.Gen.KernelIdeal
import proofs.«102250_j60498909331914_1_alg».proof.Proof.Gen.KernelIdeal.Skeleton
import proofs.«102250_j60498909331914_1_alg».proof.Proof.Gen.KernelIdeal.Launch
import proofs.«102250_j60498909331914_1_alg».proof.Proof.Gen.KernelIdeal.Points
import proofs.«102250_j60498909331914_1_alg».proof.Proof.Gen.KernelIdeal.Frame
import proofs.«102250_j60498909331914_1_alg».proof.Proof.Gen.ReferenceIdeal
import proofs.«102250_j60498909331914_1_alg».proof.Proof.Gen.KernelIdeal.Value
import proofs.«102250_j60498909331914_1_alg».proof.Proof.Gen.Pre_finite_inputs
import proofs.«102250_j60498909331914_1_alg».proof.Proof.RefRun
import proofs.«102250_j60498909331914_1_alg».proof.Proof.WeightTransform
import proofs.«102250_j60498909331914_1_alg».proof.Proof.KernelFinal
import proofs.«102250_j60498909331914_1_alg».proof.Proof.RefLayer
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the layer's result of the launched `g` and `h` and the kernel's transformed weight: the
    kernel's by its blocks, the reference's by its whole-array products over a transformed weight equal to the kernel's. -/
theorem algebraic : Cert.algebraic_KernelIdeal_ReferenceIdeal := by
  intro m ρ m' ρ' _ hagree
  refine ⟨fun c => Cert.GraphLayer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (Cert.KernelIdeal.Blocks.warr m c),
    Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v65 m' c
    = Cert.GraphLayer.layer (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (Cert.KernelIdeal.Blocks.warr m c)
  rw [← (hagree c).1, ← (hagree c).2.1]
  exact Cert.ReferenceIdeal.Layer.result_eq (launchContents m' c) (Cert.KernelIdeal.Blocks.warr m c)
    (Cert.WeightTransform.same (F := Ideal) (fun b => m (c, b)) (launchContents m' c) (hagree c).2.2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
